-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S128x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  transposes_S128x128_S128x128_1_0 : S128x128.Transposes [1, 0] S128x128
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibSharedFrame.lean ====
/-
  The frame run of a one-region pipeline whose input windows may share an array.

  A kernel may be handed one array through several input windows (two streams of row blocks of one matrix, say).
  The buffers behind the windows' arrays are then fewer than the windows, and the launch cannot hand every window
  its array at the full share: the proof says how the full share of each buffer is dealt among the windows on it
  (`hsplit`).  Everything else is as for distinct arrays: the body obligation at every point, an invariant that is
  entered from the scoped buffers no window stages, each whole at some contents (`hin`), and gives them back after
  the last point (`hout`); the unscoped buffers that are no window's array bypass the region.  The conclusion is the
  library's frame post: every window's array ends at what the write-backs leave of the proof data, every bypassing
  buffer as the region found it.  The generator register, the level rights and the unscoped semaphores are let go:
  a body of this kind uses none of them.
-/
import Idealize.ShloMosaic.Lib.Pipeline.Kit
import Idealize.ShloMosaic.Lib.Pipeline.Frame

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN for windows that may share arrays: from any memory with zero counters every weakly fair execution
    of @main terminates, every window's array at the proof data's `arrAt · N` and every other unscoped buffer at
    its region-entry contents. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (cfg).spec c : sProp 𝕄) from by iintro ⟨-, H⟩; iexact H).trans (hin c))
    (hout := fun c => (hout c).trans (by
      iintro H
      isplitr; · iempintro
      iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.K.Kit.lean ====
/-
  What the kernel region's frame is stated over.

  The program's main function is the one kernel region, so the region finds every array at its launch contents.
  The pipeline has five windows on a grid of 25 points: the feature matrix and the weight matrix, each one whole block
  fetched at the first point only; two streams of 200 adjacency rows each, the even and the odd row blocks of ONE
  array, fetched at every point; and the result, 400 rows a point, written back at every point.  Between points
  the body keeps the projected features in a scratch buffer, which it fills at the first point (the body's one
  conditional, decided by the grid coordinate) and only reads afterwards.
-/
import proofs.«102075_g11467562680484_week1_w4_595_9_alg».proof.Proof.Gen.Kernel.Launch
import proofs.«102075_g11467562680484_week1_w4_595_9_alg».proof.Proof.Gen.Kernel.Skeleton
import proofs.«102075_g11467562680484_week1_w4_595_9_alg».proof.Proof.Gen.Kernel.Points
import proofs.«102075_g11467562680484_week1_w4_595_9_alg».proof.Proof.LibSharedFrame
import Idealize.ShloMosaic.Lib.Pipeline.FrameBody
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

/-- A core's buffer contents when the region is entered: the launch contents (no host operation comes before). -/
abbrev V (c : Dev nD) (b : Ref sig .tc) : Buf (Elt F) ((c : Thread nD τ).loc b) := m ((c : Thread nD τ).loc b)

/-- The main function is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (an unfetched block's index has not moved), for any proof data that start from the region-entry contents and whose
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's conditional -/

/-- The body's one conditional, from the grid coordinate: "this is the first point". -/
abbrev isFirst (i : grid0.Coords) : Prop := (Scalar.cmpi .ne (Scalar.extui (Scalar.cmpi .eq (BitVec.ofNat 32 (i 0).val) 0#32)) 0#32) = 1#1
/-- It holds at point 0 only, decided over the grid. -/
theorem isFirst_iff : ∀ t : Fin cfg0.N, isFirst (grid0.coords t) ↔ t.val = 0 :=
  (by decide +kernel : ∀ t : Fin grid0.N, isFirst (grid0.coords t) ↔ t.val = 0)

/-- No window is ever idle. -/
theorem live (w : Fin cfg0.W) (t : Fin cfg0.N) : cfg0.idle w (grid0.coords t) = false := rfl

/-! ## The staging and scratch memrefs -/

/-- One staging buffer of the result window, through which its contents are stated. -/
abbrev VO : View sig .tc .vmem S400x128 .f32 := (Memref.whole cc0_stg4_0 : Memref sig .tc .vmem S400x128 .f32).view
/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch the body carries between points: a whole scoped buffer of the kernel's own. -/
abbrev scM : Memref sig .tc .vmem S10000x128 .bf16 := Memref.whole cc0_scratch0
/-- The same as a view: what it holds is stated through it. -/
abbrev VS : View sig .tc .vmem S10000x128 .bf16 := scM.view

/-- The scoped buffers no window stages are the scratch, owned whole at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Region

end
-- ==== Proof.K.RunFirst.lean ====
/-
  The kernel body run at the first grid point.

  There the body's conditional is taken: it loads the features and the weights, stores their product (the projected
  features) over the whole scratch buffer, reads the scratch back, and stores the two halves of the result block, each
  the relu of 200 adjacency rows against the projected features.  The run is stated on any whole staging memrefs: the
  four inputs at given contents, the result's buffer and the scratch at anything; it ends with the inputs as they were
  and with the result's buffer and the scratch overwritten by lists of pieces, which the symbolic run finds.
-/
import proofs.«102075_g11467562680484_week1_w4_595_9_alg».proof.Proof.K.Kit

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the pieces it leaves in the result's staging buffer and in the scratch, with the proof
    that it runs to a continuation holding them written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) :
    Σ' (L : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Region

end
-- ==== Proof.K.RunLater.lean ====
/-
  The kernel body run at a later grid point.

  There the body's conditional is not taken: it reads the projected features back from the scratch, which it leaves as
  it found it, and stores the two halves of the result block.  The run is stated on any whole staging memrefs: the four
  inputs and the scratch at given contents, the result's buffer at anything; it ends with the inputs and the scratch as
  they were and with the result's buffer overwritten by a list of pieces, which the symbolic run finds.
-/
import proofs.«102075_g11467562680484_week1_w4_595_9_alg».proof.Proof.K.Kit

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point: the pieces it leaves in the result's staging buffer, with the proof that it runs to a
    continuation holding them written and everything else unchanged. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬isFirst i)
    (x0 : Vec F S10000x128 .f32) (x1 : Vec F S128x128 .f32) (x2 : Vec F S200x10000 .f32) (x3 : Vec F S200x10000 .f32) (xs : Vec F S10000x128 .bf16) :
    { L : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.Kernel.Region

end
-- ==== Proof.K.Pieces.lean ====
/-
  The frame of the kernel region.

  After the first grid point the scratch buffer holds the projected features, the product of the whole feature matrix
  and the whole weight matrix, and no later point writes it; so the invariant between points is constant: the
  scratch at the projected features.  At every point the result's staging buffer ends at ONE function of the
  projected features and the point's two adjacency blocks: the upper 200 rows from the even block, the lower 200 from
  the odd block.  The adjacency array is read through two windows; the full share of its buffer is split in halves
  between them.  With that the library's launch for windows that share an array applies, and the three argument
  arrays end as they were.
-/
import proofs.«102075_g11467562680484_week1_w4_595_9_alg».proof.Proof.K.RunFirst
import proofs.«102075_g11467562680484_week1_w4_595_9_alg».proof.Proof.K.RunLater
import Idealize.ShloMosaic.Lib.Ring
import Idealize.ShloMosaic.Lib.Pipeline.Value

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first point's stores tile the result's staging buffer (two stores of 200 rows). -/
theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x128.size (by sl_kernel_rfl) y

/-- The first point's one store covers the scratch. -/
theorem scoverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y

/-- A later point's stores tile the result's staging buffer. -/
theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬isFirst i)
    (x0 : Vec F S10000x128 .f32) (x1 : Vec F S128x128 .f32) (x2 : Vec F S200x10000 .f32) (x3 : Vec F S200x10000 .f32) (xs : Vec F S10000x128 .bf16) (y : S400x128.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S200x128.size (by sl_kernel_rfl) y

/-- What the first point leaves in the result's staging buffer: its pieces read back. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) : Vec F S400x128 .f32 :=
  VO.read (Elt F) (VO.writes (Elt F) VO.junk (runFirst c i arg1 harg1 arg2 harg2 arg3 harg3 arg4 harg4 arg5 harg5 arg6 harg6 hc x0 x1 x2 x3).1)

/-- What the first point leaves in the scratch. -/
def scrFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) : Vec F S10000x128 .bf16 :=
  VS.read (Elt F) (VS.writes (Elt F) VS.junk (runFirst c i arg1 harg1 arg2 harg2 arg3 harg3 arg4 harg4 arg5 harg5 arg6 harg6 hc x0 x1 x2 x3).2.1)

/-- What a later point leaves in the result's staging buffer. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬isFirst i)
    (x0 : Vec F S10000x128 .f32) (x1 : Vec F S128x128 .f32) (x2 : Vec F S200x10000 .f32) (x3 : Vec F S200x10000 .f32) (xs : Vec F S10000x128 .bf16) : Vec F S400x128 .f32 :=
  VO.read (Elt F) (VO.writes (Elt F) VO.junk (runLater c i arg1 harg1 arg2 harg2 arg3 harg3 arg4 harg4 arg5 harg5 arg6 harg6 hc x0 x1 x2 x3 xs).1)

/-- A result block as ONE function of the projected features `p` and the two adjacency blocks: the lower half's
    store over the upper half's. -/
def resultBlock (p : Vec F S10000x128 .bf16) (a b : Vec F S200x10000 .f32) : Vec F S400x128 .f32 :=
  View.canon [⟨Rect.unit (s := S400x128) ![200, 0] S200x128.size Facts₀.inb_S400x128_S200x128_200_0, k0_pay3 p b⟩,
    ⟨Rect.unit (s := S400x128) ![0, 0] S200x128.size Facts₀.inb_S400x128_S200x128_0_0, k0_pay2 p a⟩]

theorem scrFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) :
    scrFirst c i arg1 harg1 arg2 harg2 arg3 harg3 arg4 harg4 arg5 harg5 arg6 harg6 hc x0 x1 x2 x3 = k0_pay1 x0 x1 := by
  have hz : (![0, 0] : Fin 2 → Nat) = fun _ => 0 := by funext a; fin_cases a <;> rfl
  unfold scrFirst
  rw [View.read_writes_eq_canon _ _ _ (scoverFirst c i arg1 harg1 arg2 harg2 arg3 harg3 arg4 harg4 arg5 harg5 arg6 harg6 hc x0 x1 x2 x3)]
  unfold runFirst; dsimp only; sl_unfold_words
  rw [View.canon_unit_zero hz]
  simp only [View.readAt_eq_ld, harg1.read_unread, harg2.read_unread, View.ld_unit_zero (S := S10000x128) hz, View.ld_unit_zero (S := S128x128) hz]

theorem outFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) :
    outFirst c i arg1 harg1 arg2 harg2 arg3 harg3 arg4 harg4 arg5 harg5 arg6 harg6 hc x0 x1 x2 x3 = resultBlock (k0_pay1 x0 x1) x2 x3 := by
  have hz : (![0, 0] : Fin 2 → Nat) = fun _ => 0 := by funext a; fin_cases a <;> rfl
  unfold outFirst
  rw [View.read_writes_eq_canon _ _ _ (coverFirst c i arg1 harg1 arg2 harg2 arg3 harg3 arg4 harg4 arg5 harg5 arg6 harg6 hc x0 x1 x2 x3)]
  unfold runFirst; dsimp only; sl_unfold_words
  unfold resultBlock
  simp only [View.readAt_eq_ld, harg1.read_unread, harg2.read_unread, harg3.read_unread, harg4.read_unread,
    View.readCov_unit_zero (S := S10000x128) _ hz,
    View.ld_unit_zero (S := S10000x128) hz, View.ld_unit_zero (S := S128x128) hz, View.ld_unit_zero (S := S200x10000) hz]

theorem outLater_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬isFirst i)
    (x0 : Vec F S10000x128 .f32) (x1 : Vec F S128x128 .f32) (x2 : Vec F S200x10000 .f32) (x3 : Vec F S200x10000 .f32) (xs : Vec F S10000x128 .bf16) :
    outLater c i arg1 harg1 arg2 harg2 arg3 harg3 arg4 harg4 arg5 harg5 arg6 harg6 hc x0 x1 x2 x3 xs = resultBlock xs x2 x3 := by
  have hz : (![0, 0] : Fin 2 → Nat) = fun _ => 0 := by funext a; fin_cases a <;> rfl
  unfold outLater
  rw [View.read_writes_eq_canon _ _ _ (coverLater c i arg1 harg1 arg2 harg2 arg3 harg3 arg4 harg4 arg5 harg5 arg6 harg6 hc x0 x1 x2 x3 xs)]
  unfold runLater; dsimp only; sl_unfold_words
  unfold resultBlock
  simp only [View.readAt_eq_ld, harg3.read_unread, harg4.read_unread, harg6.read_unread,
    View.ld_unit_zero (S := S10000x128) hz, View.ld_unit_zero (S := S200x10000) hz]

end Cert.Kernel.Region

end
-- ==== Proof.K.Frame.lean ====
/-
  The proof data of the kernel region, the body obligation and the frame.

  After the first grid point the scratch buffer holds the projected features — the body's first pure value of the whole
  feature matrix and the whole weight matrix — and no later point writes it, so the invariant between points is
  constant.  At every point the result's staging buffer ends at ONE function of the projected features and the
  point's two adjacency blocks.  The adjacency array is read through two windows; the full share of its buffer is
  split in halves between them.  The library's launch for windows that share an array then gives the run, and the
  three argument arrays, never written, end as they were.
-/
import proofs.«102075_g11467562680484_week1_w4_595_9_alg».proof.Proof.K.Pieces

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first grid point. -/
abbrev t₀ : Fin cfg0.N := ⟨0, by decide⟩

/-- The projected features: what the first point stores in the scratch, of the two whole input blocks. -/
def projFeat (c : Dev nD) : Vec F S10000x128 .bf16 := k0_pay1 (iblk m c 0 t₀) (iblk m c 1 t₀)

/-- The region invariant before position `n`: before the first point the scoped buffers no window stages at
    anything; afterwards the scratch at the projected features. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (projFeat m c)

theorem PhiS_zero (c : Dev nD) (n : ℕ) (hz : n = 0) :
    PhiS m c n = Pipeline.scopedRest (Ix := Unit) (Name := ℕ) (U := UR sig nD τ) (Lvl := ℕ) (Val := Elt F) spec0 c := by
  subst hz; rfl

theorem PhiS_pos (c : Dev nD) (n : ℕ) (hz : n ≠ 0) : PhiS m c n = owns (c : Thread nD τ) scM fullShare (projFeat m c) := by
  cases n with
  | zero => exact absurd rfl hz
  | succ n => rfl

/-- The proof data on core `c`: the arrays as the region finds them; after the body at point `t` each input's buffer
    at its block and the result's at the block of the projected features and the point's adjacency blocks; the
    adjacency buffer's share halved between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => resultBlock (projFeat m c) (iblk m c 2 t) (iblk m c 3 t)
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = owns (c : Thread nD τ) scM fullShare (projFeat m c) := by
  dsimp only [dats]; simp only [Fin.val_succ]; rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = resultBlock (projFeat m c) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 4000000 in
/-- The body at any point: the inputs' memrefs hold their blocks; at the first point the scratch is handed over at
    anything and taken back at the projected features, at a later point handed over and taken back at them; the
    result's buffer is taken back at the block the stores leave. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [Phi_succ, Phi_castSucc]
  rw [leaves_eq m c 0 t, leaves_eq m c 1 t, leaves_eq m c 2 t, leaves_eq m c 3 t, leaves_eq m c 4 t,
    after0, after1, after2, after3, after4]
  by_cases hz : t.val = 0
  · have ht : t = t₀ := Fin.ext hz
    rw [PhiS_zero m c _ hz, scopedRest_eq]
    iintro ⟨HS, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro
      refine (View.read_writes_of_cover _ _ VS VS.junk _ (scoverFirst c _ _ _ _ _ _ _ _ _ _ _ _ _ _ _ _ _ _)).trans ?_
      refine (scrFirst_eq c _ _ _ _ _ _ _ _ _ _ _ _ _ _ _ _ _ _).trans ?_
      unfold projFeat; rw [ht]
    isplitl [Ho]; · iexact Ho
    isplitl [H0]; · iexact H0
    isplitl [H1]; · iexact H1
    isplitl [H2]; · iexact H2
    isplitl [H3]; · iexact H3
    unfold owns; iexists _; isplitr
    swap; · iexact H4
    ipureintro
    refine (View.read_writes_of_cover _ _ VO VO.junk _ (coverFirst c _ _ _ _ _ _ _ _ _ _ _ _ _ _ _ _ _ _)).trans ?_
    refine (outFirst_eq c _ _ _ _ _ _ _ _ _ _ _ _ _ _ _ _ _ _).trans ?_
    unfold projFeat; rw [ht]
  · rw [PhiS_pos m c _ hz]
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h => hz ((isFirst_iff t).mp h)) (iblk m c 0 t) (iblk m c 1 t) (iblk m c 2 t) (iblk m c 3 t) (projFeat m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro
    refine (View.read_writes_of_cover _ _ VO VO.junk _ (coverLater c _ _ _ _ _ _ _ _ _ _ _ _ _ _ _ _ _ _ _)).trans ?_
    exact outLater_eq c _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The scoped buffers no window stages are the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 :=
  Idealize.SL.BI.Entails.refl _

/-- After the last point the scratch's named contents are forgotten. -/
theorem hout (c : Dev nD) : (dats m 0 c).Φ (Fin.last cfg0.N) ⊢
    (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_eq]
  iintro HS
  iexists _; iexact HS

end Cert.Kernel.Region

end
-- ==== Proof.K.Run.lean ====
/-
  The run of the kernel's program and its frame.

  The adjacency matrix reaches the kernel through two windows, so the buffers behind the windows' arrays are four
  for five windows.  The full share of the adjacency buffer is split into its left and right halves, one for each
  stream of row blocks; the other three buffers go whole to their windows.  The launch for windows that share an array
  then gives the run: every window's array ends at what the write-backs leave.  An input window's array is never
  written, so the three arguments end at their launch contents.
-/
import proofs.«102075_g11467562680484_week1_w4_595_9_alg».proof.Proof.K.Frame

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share0 (c : Dev nD) : (dats m 0 c).share 0 = fullShare := rfl
theorem share1 (c : Dev nD) : (dats m 0 c).share 1 = fullShare := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The buffers behind the windows' arrays, each whole at the full share, make the proof data's arrays at entry:
    the adjacency buffer's full share splits into the two halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, BI.bigSep_eq_bigSepL_of_eq [main_arg0, main_arg2, main_arg1, main_v0] (by decide) (by decide)]
  simp only [BI.bigSepL_cons_cons, BI.bigSepL_singleton]
  rw [share0, share1, share2, share3, share4]
  have e0 : (View.whole main_arg0 : View sig .tc .hbm S10000x128 .f32).set = Finset.univ := (Memref.isWhole_whole main_arg0).set_eq_univ
  have e1 : (View.whole main_arg1 : View sig .tc .hbm S10000x10000 .f32).set = Finset.univ := (Memref.isWhole_whole main_arg1).set_eq_univ
  have e2 : (View.whole main_arg2 : View sig .tc .hbm S128x128 .f32).set = Finset.univ := (Memref.isWhole_whole main_arg2).set_eq_univ
  have e3 : (View.whole main_v0 : View sig .tc .hbm S10000x128 .f32).set = Finset.univ := (Memref.isWhole_whole main_v0).set_eq_univ
  rw [e0, e1, e2, e3]
  show (iprop((((c.tc : Thread nD τ).loc main_arg0) ↦{fullShare} V m c main_arg0) ∗ (((c.tc : Thread nD τ).loc main_arg2) ↦{fullShare} V m c main_arg2)
    ∗ (((c.tc : Thread nD τ).loc main_arg1) ↦{fullShare} V m c main_arg1) ∗ (((c.tc : Thread nD τ).loc main_v0) ↦{fullShare} V m c main_v0)) : sProp 𝕄) ⊢ _
  iintro ⟨H0, H2, H1, H4⟩
  have halves : ((((c.tc : Thread nD τ).loc main_arg1) ↦{fullShare} V m c main_arg1) : sProp 𝕄)
      ⊢ iprop((((c.tc : Thread nD τ).loc main_arg1) ↦{fullShare.left} V m c main_arg1) ∗ (((c.tc : Thread nD τ).loc main_arg1) ↦{fullShare.right} V m c main_arg1)) :=
    (pointsTo_share (PosShare.mem_left_op_right fullShare)).1
  ihave H1' := halves $$ H1
  icases H1' with ⟨H1a, H1b⟩
  isplitl [H0]; · iexact H0
  isplitl [H2]; · iexact H2
  isplitl [H1a]; · iexact H1a
  isplitl [H1b]; · iexact H1b
  iexact H4

/-! ## The run and the frame -/

set_option backward.isDefEq.respectTransparency.types false in
/-- From any memory with zero counters every weakly fair execution of the main function terminates, every window's
    array at what the write-backs leave of the proof data. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- An input window's array ends at its launch contents. -/
theorem kept0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans (A_eq m c 0))
theorem kept1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 2).trans (((dats m 0 c).arrAt_in 2 rfl _).trans (A_eq m c 2))
theorem kept2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 1).trans (((dats m 0 c).arrAt_in 1 rfl _).trans (A_eq m c 1))
/-- The result array ends at what the 25 write-backs leave. -/
theorem result (r : PUnit × MemSt nD τ sig (Elt F)) (h : Pipeline.FramePost cfgs (dats m) 0 (V m) r) (c : Dev nD) :
    r.2.mem ((c.tc : Thread nD τ).loc main_v0) = (dats m 0 c).arrAt 4 cfg0.N :=
  (h c).1 4

/-- THE FRAME: the program runs to the end, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept0 m r h c, kept1 m r h c, kept2 m r h c⟩) (run_main m ρ)

end Cert.Kernel.Region

end
-- ==== Proof.KI.Kit.lean ====
/-
  What the kernel region's frame is stated over.

  The program's main function is the one kernel region, so the region finds every array at its launch contents.
  The pipeline has five windows on a grid of 25 points: the feature matrix and the weight matrix, each one whole block
  fetched at the first point only; two streams of 200 adjacency rows each, the even and the odd row blocks of ONE
  array, fetched at every point; and the result, 400 rows a point, written back at every point.  Between points
  the body keeps the projected features in a scratch buffer, which it fills at the first point (the body's one
  conditional, decided by the grid coordinate) and only reads afterwards.
-/
import proofs.«102075_g11467562680484_week1_w4_595_9_alg».proof.Proof.Gen.KernelIdeal.Launch
import proofs.«102075_g11467562680484_week1_w4_595_9_alg».proof.Proof.Gen.KernelIdeal.Skeleton
import proofs.«102075_g11467562680484_week1_w4_595_9_alg».proof.Proof.Gen.KernelIdeal.Points
import proofs.«102075_g11467562680484_week1_w4_595_9_alg».proof.Proof.LibSharedFrame
import Idealize.ShloMosaic.Lib.Pipeline.FrameBody
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

/-- A core's buffer contents when the region is entered: the launch contents (no host operation comes before). -/
abbrev V (c : Dev nD) (b : Ref sig .tc) : Buf (Elt F) ((c : Thread nD τ).loc b) := m ((c : Thread nD τ).loc b)

/-- The main function is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not
    (an unfetched block's index has not moved), for any proof data that start from the region-entry contents and whose
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's conditional -/

/-- The body's one conditional, from the grid coordinate: "this is the first point". -/
abbrev isFirst (i : grid0.Coords) : Prop := (Scalar.cmpi .ne (Scalar.extui (Scalar.cmpi .eq (BitVec.ofNat 32 (i 0).val) 0#32)) 0#32) = 1#1
/-- It holds at point 0 only, decided over the grid. -/
theorem isFirst_iff : ∀ t : Fin cfg0.N, isFirst (grid0.coords t) ↔ t.val = 0 :=
  (by decide +kernel : ∀ t : Fin grid0.N, isFirst (grid0.coords t) ↔ t.val = 0)

/-- No window is ever idle. -/
theorem live (w : Fin cfg0.W) (t : Fin cfg0.N) : cfg0.idle w (grid0.coords t) = false := rfl

/-! ## The staging and scratch memrefs -/

/-- One staging buffer of the result window, through which its contents are stated. -/
abbrev VO : View sig .tc .vmem S400x128 .f32 := (Memref.whole cc0_stg4_0 : Memref sig .tc .vmem S400x128 .f32).view
/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The scratch the body carries between points: a whole scoped buffer of the kernel's own. -/
abbrev scM : Memref sig .tc .vmem S10000x128 .bf16 := Memref.whole cc0_scratch0
/-- The same as a view: what it holds is stated through it. -/
abbrev VS : View sig .tc .vmem S10000x128 .bf16 := scM.view

/-- The scoped buffers no window stages are the scratch, owned whole at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Region

end
-- ==== Proof.KI.RunFirst.lean ====
/-
  The kernel body run at the first grid point.

  There the body's conditional is taken: it loads the features and the weights, stores their product (the projected
  features) over the whole scratch buffer, reads the scratch back, and stores the two halves of the result block, each
  the relu of 200 adjacency rows against the projected features.  The run is stated on any whole staging memrefs: the
  four inputs at given contents, the result's buffer and the scratch at anything; it ends with the inputs as they were
  and with the result's buffer and the scratch overwritten by lists of pieces, which the symbolic run finds.
-/
import proofs.«102075_g11467562680484_week1_w4_595_9_alg».proof.Proof.KI.Kit

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the pieces it leaves in the result's staging buffer and in the scratch, with the proof
    that it runs to a continuation holding them written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) :
    Σ' (L : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Region

end
-- ==== Proof.KI.RunLater.lean ====
/-
  The kernel body run at a later grid point.

  There the body's conditional is not taken: it reads the projected features back from the scratch, which it leaves as
  it found it, and stores the two halves of the result block.  The run is stated on any whole staging memrefs: the four
  inputs and the scratch at given contents, the result's buffer at anything; it ends with the inputs and the scratch as
  they were and with the result's buffer overwritten by a list of pieces, which the symbolic run finds.
-/
import proofs.«102075_g11467562680484_week1_w4_595_9_alg».proof.Proof.KI.Kit

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point: the pieces it leaves in the result's staging buffer, with the proof that it runs to a
    continuation holding them written and everything else unchanged. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬isFirst i)
    (x0 : Vec F S10000x128 .f32) (x1 : Vec F S128x128 .f32) (x2 : Vec F S200x10000 .f32) (x3 : Vec F S200x10000 .f32) (xs : Vec F S10000x128 .bf16) :
    { L : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3
    obtain rfl := harg6.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS

end Cert.KernelIdeal.Region

end
-- ==== Proof.KI.Pieces.lean ====
/-
  The frame of the kernel region.

  After the first grid point the scratch buffer holds the projected features, the product of the whole feature matrix
  and the whole weight matrix, and no later point writes it; so the invariant between points is constant: the
  scratch at the projected features.  At every point the result's staging buffer ends at ONE function of the
  projected features and the point's two adjacency blocks: the upper 200 rows from the even block, the lower 200 from
  the odd block.  The adjacency array is read through two windows; the full share of its buffer is split in halves
  between them.  With that the library's launch for windows that share an array applies, and the three argument
  arrays end as they were.
-/
import proofs.«102075_g11467562680484_week1_w4_595_9_alg».proof.Proof.KI.RunFirst
import proofs.«102075_g11467562680484_week1_w4_595_9_alg».proof.Proof.KI.RunLater
import Idealize.ShloMosaic.Lib.Ring
import Idealize.ShloMosaic.Lib.Pipeline.Value

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two runs leave -/

/-- The first point's stores tile the result's staging buffer (two stores of 200 rows). -/
theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) (y : S400x128.Idx) :
    ∃ pc ∈ (runFirst c i arg1 harg1 arg2 harg2 arg3 harg3 arg4 harg4 arg5 harg5 arg6 harg6 hc x0 x1 x2 x3).1, y ∈ pc.1.set :=
  View.cover_of_tiledL (runFirst c i arg1 harg1 arg2 harg2 arg3 harg3 arg4 harg4 arg5 harg5 arg6 harg6 hc x0 x1 x2 x3).1 S200x128.size (by sl_kernel_rfl) y

/-- The first point's one store covers the scratch. -/
theorem scoverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) (y : S10000x128.Idx) :
    ∃ pc ∈ (runFirst c i arg1 harg1 arg2 harg2 arg3 harg3 arg4 harg4 arg5 harg5 arg6 harg6 hc x0 x1 x2 x3).2.1, y ∈ pc.1.set :=
  View.cover_of_tiledL (runFirst c i arg1 harg1 arg2 harg2 arg3 harg3 arg4 harg4 arg5 harg5 arg6 harg6 hc x0 x1 x2 x3).2.1 S10000x128.size (by sl_kernel_rfl) y

/-- A later point's stores tile the result's staging buffer. -/
theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬isFirst i)
    (x0 : Vec F S10000x128 .f32) (x1 : Vec F S128x128 .f32) (x2 : Vec F S200x10000 .f32) (x3 : Vec F S200x10000 .f32) (xs : Vec F S10000x128 .bf16) (y : S400x128.Idx) :
    ∃ pc ∈ (runLater c i arg1 harg1 arg2 harg2 arg3 harg3 arg4 harg4 arg5 harg5 arg6 harg6 hc x0 x1 x2 x3 xs).1, y ∈ pc.1.set :=
  View.cover_of_tiledL (runLater c i arg1 harg1 arg2 harg2 arg3 harg3 arg4 harg4 arg5 harg5 arg6 harg6 hc x0 x1 x2 x3 xs).1 S200x128.size (by sl_kernel_rfl) y

/-- What the first point leaves in the result's staging buffer: its pieces read back. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) : Vec F S400x128 .f32 :=
  VO.read (Elt F) (VO.writes (Elt F) VO.junk (runFirst c i arg1 harg1 arg2 harg2 arg3 harg3 arg4 harg4 arg5 harg5 arg6 harg6 hc x0 x1 x2 x3).1)

/-- What the first point leaves in the scratch. -/
def scrFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) : Vec F S10000x128 .bf16 :=
  VS.read (Elt F) (VS.writes (Elt F) VS.junk (runFirst c i arg1 harg1 arg2 harg2 arg3 harg3 arg4 harg4 arg5 harg5 arg6 harg6 hc x0 x1 x2 x3).2.1)

/-- What a later point leaves in the result's staging buffer. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬isFirst i)
    (x0 : Vec F S10000x128 .f32) (x1 : Vec F S128x128 .f32) (x2 : Vec F S200x10000 .f32) (x3 : Vec F S200x10000 .f32) (xs : Vec F S10000x128 .bf16) : Vec F S400x128 .f32 :=
  VO.read (Elt F) (VO.writes (Elt F) VO.junk (runLater c i arg1 harg1 arg2 harg2 arg3 harg3 arg4 harg4 arg5 harg5 arg6 harg6 hc x0 x1 x2 x3 xs).1)

/-- A result block as ONE function of the projected features `p` and the two adjacency blocks: the lower half's
    store over the upper half's. -/
def resultBlock (p : Vec F S10000x128 .bf16) (a b : Vec F S200x10000 .f32) : Vec F S400x128 .f32 :=
  View.canon [⟨Rect.unit (s := S400x128) ![200, 0] S200x128.size Facts₀.inb_S400x128_S200x128_200_0, k0_pay3 p b⟩,
    ⟨Rect.unit (s := S400x128) ![0, 0] S200x128.size Facts₀.inb_S400x128_S200x128_0_0, k0_pay2 p a⟩]

theorem scrFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) :
    scrFirst c i arg1 harg1 arg2 harg2 arg3 harg3 arg4 harg4 arg5 harg5 arg6 harg6 hc x0 x1 x2 x3 = k0_pay1 x0 x1 := by
  have hz : (![0, 0] : Fin 2 → Nat) = fun _ => 0 := by funext a; fin_cases a <;> rfl
  unfold scrFirst
  rw [View.read_writes_eq_canon _ _ _ (scoverFirst c i arg1 harg1 arg2 harg2 arg3 harg3 arg4 harg4 arg5 harg5 arg6 harg6 hc x0 x1 x2 x3)]
  unfold runFirst; dsimp only; sl_unfold_words
  rw [View.canon_unit_zero hz]
  simp only [View.readAt_eq_ld, harg1.read_unread, harg2.read_unread, View.ld_unit_zero (S := S10000x128) hz, View.ld_unit_zero (S := S128x128) hz]

theorem outFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : isFirst i)
    (x0 : Vec F S10000x128 .f32) (x1 : Vec F S128x128 .f32) (x2 : Vec F S200x10000 .f32) (x3 : Vec F S200x10000 .f32) :
    outFirst c i arg1 harg1 arg2 harg2 arg3 harg3 arg4 harg4 arg5 harg5 arg6 harg6 hc x0 x1 x2 x3 = resultBlock (k0_pay1 x0 x1) x2 x3 := by
  have hz : (![0, 0] : Fin 2 → Nat) = fun _ => 0 := by funext a; fin_cases a <;> rfl
  unfold outFirst
  rw [View.read_writes_eq_canon _ _ _ (coverFirst c i arg1 harg1 arg2 harg2 arg3 harg3 arg4 harg4 arg5 harg5 arg6 harg6 hc x0 x1 x2 x3)]
  unfold runFirst; dsimp only; sl_unfold_words
  unfold resultBlock
  simp only [View.readAt_eq_ld, harg1.read_unread, harg2.read_unread, harg3.read_unread, harg4.read_unread,
    View.readCov_unit_zero (S := S10000x128) _ hz,
    View.ld_unit_zero (S := S10000x128) hz, View.ld_unit_zero (S := S128x128) hz, View.ld_unit_zero (S := S200x10000) hz]

theorem outLater_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc : ¬isFirst i)
    (x0 : Vec F S10000x128 .f32) (x1 : Vec F S128x128 .f32) (x2 : Vec F S200x10000 .f32) (x3 : Vec F S200x10000 .f32) (xs : Vec F S10000x128 .bf16) :
    outLater c i arg1 harg1 arg2 harg2 arg3 harg3 arg4 harg4 arg5 harg5 arg6 harg6 hc x0 x1 x2 x3 xs = resultBlock xs x2 x3 := by
  have hz : (![0, 0] : Fin 2 → Nat) = fun _ => 0 := by funext a; fin_cases a <;> rfl
  unfold outLater
  rw [View.read_writes_eq_canon _ _ _ (coverLater c i arg1 harg1 arg2 harg2 arg3 harg3 arg4 harg4 arg5 harg5 arg6 harg6 hc x0 x1 x2 x3 xs)]
  unfold runLater; dsimp only; sl_unfold_words
  unfold resultBlock
  simp only [View.readAt_eq_ld, harg3.read_unread, harg4.read_unread, harg6.read_unread,
    View.ld_unit_zero (S := S10000x128) hz, View.ld_unit_zero (S := S200x10000) hz]

end Cert.KernelIdeal.Region

end
-- ==== Proof.KI.Frame.lean ====
/-
  The proof data of the kernel region, the body obligation and the frame.

  After the first grid point the scratch buffer holds the projected features — the body's first pure value of the whole
  feature matrix and the whole weight matrix — and no later point writes it, so the invariant between points is
  constant.  At every point the result's staging buffer ends at ONE function of the projected features and the
  point's two adjacency blocks.  The adjacency array is read through two windows; the full share of its buffer is
  split in halves between them.  The library's launch for windows that share an array then gives the run, and the
  three argument arrays, never written, end as they were.
-/
import proofs.«102075_g11467562680484_week1_w4_595_9_alg».proof.Proof.KI.Pieces

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first grid point. -/
abbrev t₀ : Fin cfg0.N := ⟨0, by decide⟩

/-- The projected features: what the first point stores in the scratch, of the two whole input blocks. -/
def projFeat (c : Dev nD) : Vec F S10000x128 .bf16 := k0_pay1 (iblk m c 0 t₀) (iblk m c 1 t₀)

/-- The region invariant before position `n`: before the first point the scoped buffers no window stages at
    anything; afterwards the scratch at the projected features. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (projFeat m c)

theorem PhiS_zero (c : Dev nD) (n : ℕ) (hz : n = 0) :
    PhiS m c n = Pipeline.scopedRest (Ix := Unit) (Name := ℕ) (U := UR sig nD τ) (Lvl := ℕ) (Val := Elt F) spec0 c := by
  subst hz; rfl

theorem PhiS_pos (c : Dev nD) (n : ℕ) (hz : n ≠ 0) : PhiS m c n = owns (c : Thread nD τ) scM fullShare (projFeat m c) := by
  cases n with
  | zero => exact absurd rfl hz
  | succ n => rfl

/-- The proof data on core `c`: the arrays as the region finds them; after the body at point `t` each input's buffer
    at its block and the result's at the block of the projected features and the point's adjacency blocks; the
    adjacency buffer's share halved between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => resultBlock (projFeat m c) (iblk m c 2 t) (iblk m c 3 t)
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = owns (c : Thread nD τ) scM fullShare (projFeat m c) := by
  dsimp only [dats]; simp only [Fin.val_succ]; rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = resultBlock (projFeat m c) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

set_option maxHeartbeats 4000000 in
/-- The body at any point: the inputs' memrefs hold their blocks; at the first point the scratch is handed over at
    anything and taken back at the projected features, at a later point handed over and taken back at them; the
    result's buffer is taken back at the block the stores leave. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [Phi_succ, Phi_castSucc]
  rw [leaves_eq m c 0 t, leaves_eq m c 1 t, leaves_eq m c 2 t, leaves_eq m c 3 t, leaves_eq m c 4 t,
    after0, after1, after2, after3, after4]
  by_cases hz : t.val = 0
  · have ht : t = t₀ := Fin.ext hz
    rw [PhiS_zero m c _ hz, scopedRest_eq]
    iintro ⟨HS, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro
      refine (View.read_writes_of_cover _ _ VS VS.junk _ (scoverFirst c _ _ _ _ _ _ _ _ _ _ _ _ _ _ _ _ _ _)).trans ?_
      refine (scrFirst_eq c _ _ _ _ _ _ _ _ _ _ _ _ _ _ _ _ _ _).trans ?_
      unfold projFeat; rw [ht]
    isplitl [Ho]; · iexact Ho
    isplitl [H0]; · iexact H0
    isplitl [H1]; · iexact H1
    isplitl [H2]; · iexact H2
    isplitl [H3]; · iexact H3
    unfold owns; iexists _; isplitr
    swap; · iexact H4
    ipureintro
    refine (View.read_writes_of_cover _ _ VO VO.junk _ (coverFirst c _ _ _ _ _ _ _ _ _ _ _ _ _ _ _ _ _ _)).trans ?_
    refine (outFirst_eq c _ _ _ _ _ _ _ _ _ _ _ _ _ _ _ _ _ _).trans ?_
    unfold projFeat; rw [ht]
  · rw [PhiS_pos m c _ hz]
    iintro ⟨HS, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h => hz ((isFirst_iff t).mp h)) (iblk m c 0 t) (iblk m c 1 t) (iblk m c 2 t) (iblk m c 3 t) (projFeat m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro
    refine (View.read_writes_of_cover _ _ VO VO.junk _ (coverLater c _ _ _ _ _ _ _ _ _ _ _ _ _ _ _ _ _ _ _)).trans ?_
    exact outLater_eq c _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The scoped buffers no window stages are the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 :=
  Idealize.SL.BI.Entails.refl _

/-- After the last point the scratch's named contents are forgotten. -/
theorem hout (c : Dev nD) : (dats m 0 c).Φ (Fin.last cfg0.N) ⊢
    (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_eq]
  iintro HS
  iexists _; iexact HS

end Cert.KernelIdeal.Region

end
-- ==== Proof.KI.Run.lean ====
/-
  The run of the kernel's program and its frame.

  The adjacency matrix reaches the kernel through two windows, so the buffers behind the windows' arrays are four
  for five windows.  The full share of the adjacency buffer is split into its left and right halves, one for each
  stream of row blocks; the other three buffers go whole to their windows.  The launch for windows that share an array
  then gives the run: every window's array ends at what the write-backs leave.  An input window's array is never
  written, so the three arguments end at their launch contents.
-/
import proofs.«102075_g11467562680484_week1_w4_595_9_alg».proof.Proof.KI.Frame

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share0 (c : Dev nD) : (dats m 0 c).share 0 = fullShare := rfl
theorem share1 (c : Dev nD) : (dats m 0 c).share 1 = fullShare := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The buffers behind the windows' arrays, each whole at the full share, make the proof data's arrays at entry:
    the adjacency buffer's full share splits into the two halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, BI.bigSep_eq_bigSepL_of_eq [main_arg0, main_arg2, main_arg1, main_v0] (by decide) (by decide)]
  simp only [BI.bigSepL_cons_cons, BI.bigSepL_singleton]
  rw [share0, share1, share2, share3, share4]
  have e0 : (View.whole main_arg0 : View sig .tc .hbm S10000x128 .f32).set = Finset.univ := (Memref.isWhole_whole main_arg0).set_eq_univ
  have e1 : (View.whole main_arg1 : View sig .tc .hbm S10000x10000 .f32).set = Finset.univ := (Memref.isWhole_whole main_arg1).set_eq_univ
  have e2 : (View.whole main_arg2 : View sig .tc .hbm S128x128 .f32).set = Finset.univ := (Memref.isWhole_whole main_arg2).set_eq_univ
  have e3 : (View.whole main_v0 : View sig .tc .hbm S10000x128 .f32).set = Finset.univ := (Memref.isWhole_whole main_v0).set_eq_univ
  rw [e0, e1, e2, e3]
  show (iprop((((c.tc : Thread nD τ).loc main_arg0) ↦{fullShare} V m c main_arg0) ∗ (((c.tc : Thread nD τ).loc main_arg2) ↦{fullShare} V m c main_arg2)
    ∗ (((c.tc : Thread nD τ).loc main_arg1) ↦{fullShare} V m c main_arg1) ∗ (((c.tc : Thread nD τ).loc main_v0) ↦{fullShare} V m c main_v0)) : sProp 𝕄) ⊢ _
  iintro ⟨H0, H2, H1, H4⟩
  have halves : ((((c.tc : Thread nD τ).loc main_arg1) ↦{fullShare} V m c main_arg1) : sProp 𝕄)
      ⊢ iprop((((c.tc : Thread nD τ).loc main_arg1) ↦{fullShare.left} V m c main_arg1) ∗ (((c.tc : Thread nD τ).loc main_arg1) ↦{fullShare.right} V m c main_arg1)) :=
    (pointsTo_share (PosShare.mem_left_op_right fullShare)).1
  ihave H1' := halves $$ H1
  icases H1' with ⟨H1a, H1b⟩
  isplitl [H0]; · iexact H0
  isplitl [H2]; · iexact H2
  isplitl [H1a]; · iexact H1a
  isplitl [H1b]; · iexact H1b
  iexact H4

/-! ## The run and the frame -/

set_option backward.isDefEq.respectTransparency.types false in
/-- From any memory with zero counters every weakly fair execution of the main function terminates, every window's
    array at what the write-backs leave of the proof data. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- An input window's array ends at its launch contents. -/
theorem kept0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans (A_eq m c 0))
theorem kept1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 2).trans (((dats m 0 c).arrAt_in 2 rfl _).trans (A_eq m c 2))
theorem kept2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 1).trans (((dats m 0 c).arrAt_in 1 rfl _).trans (A_eq m c 1))
/-- The result array ends at what the 25 write-backs leave. -/
theorem result (r : PUnit × MemSt nD τ sig (Elt F)) (h : Pipeline.FramePost cfgs (dats m) 0 (V m) r) (c : Dev nD) :
    r.2.mem ((c.tc : Thread nD τ).loc main_v0) = (dats m 0 c).arrAt 4 cfg0.N :=
  (h c).1 4

/-- THE FRAME: the program runs to the end, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨kept0 m r h c, kept1 m r h c, kept2 m r h c⟩) (run_main m ρ)

end Cert.KernelIdeal.Region

end
-- ==== Proof.KI.Payload.lean ====
/-
  The kernel body's arithmetic, read entry by entry at the exact instance.

  The body has three pure values.  The first, computed once, is every node's projected feature row,
  (v · Wᵀ)[k, j] = ∑ₗ v[k,l] · W[j,l] (a matrix product contracting the second axis of both operands into a zero
  accumulator; the change of float format that follows is the identity on exact values).  The other two are the same
  expression on the upper and the lower half of a block of adjacency rows: max (∑ₖ a[r,k] · p[k,j]) 0, where a is
  200 adjacency rows and p the projected features.
-/
import proofs.«102075_g11467562680484_week1_w4_595_9_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

/-! ## The first product: both operands contracted on their second axis -/

/-- The left operand's row is the output's row. -/
theorem lhs_proj_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
/-- The left operand's column is the contraction position. -/
theorem lhs_proj_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
/-- The right operand's row is the output's column (the right operand enters transposed). -/
theorem rhs_proj_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
/-- The right operand's column is the contraction position. -/
theorem rhs_proj_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The projected features at node k and output feature j. -/
theorem projected_apply (x : Vec Ideal S10000x128 .f32) (w : Vec Ideal S128x128 .f32) (k : Fin 10000) (j : Fin 128) :
    k0_pay1 (F := Ideal) x w (ix2 k j) = ∑ l : Fin 128, x (ix2 k l) * w (ix2 j l) := by
  unfold k0_pay1
  rw [shapeCast_self]
  rw [truncf_apply]
  simp only [matmul]
  rw [Ideal.matmul_constant_zero_apply, ← Equiv.sum_comp (contrEquiv1 dot_S10000x128_S128x128_S10000x128_1_1_0_0_n_n 128 rfl rfl).symm]
  refine Finset.sum_congr rfl fun l _ => ?_
  have hl := contrEquiv1_symm_val dot_S10000x128_S128x128_S10000x128_1_1_0_0_n_n 128 rfl rfl l
  have el : dot_S10000x128_S128x128_S10000x128_1_1_0_0_n_n.lhsIdx (ix2 k j) ((contrEquiv1 dot_S10000x128_S128x128_S10000x128_1_1_0_0_n_n 128 rfl rfl).symm l) = ix2 k l := funext fun a => Fin.ext (by
    match a with
    | ⟨0, _⟩ => exact lhs_proj_0 _ _
    | ⟨1, _⟩ => exact (lhs_proj_1 _ _).trans hl)
  have er : dot_S10000x128_S128x128_S10000x128_1_1_0_0_n_n.rhsIdx (ix2 k j) ((contrEquiv1 dot_S10000x128_S128x128_S10000x128_1_1_0_0_n_n 128 rfl rfl).symm l) = ix2 j l := funext fun a => Fin.ext (by
    match a with
    | ⟨0, _⟩ => exact rhs_proj_0 _ _
    | ⟨1, _⟩ => exact (rhs_proj_1 _ _).trans hl)
  rw [el, er]

/-! ## The second product: adjacency rows against the projected features -/

/-- The left operand's row is the output's row. -/
theorem lhs_agg_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's column is the contraction position. -/
theorem lhs_agg_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- The right operand's row is the contraction position. -/
theorem rhs_agg_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- The right operand's column is the output's column. -/
theorem rhs_agg_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Row r of 200 adjacency rows against column j of the projected features, into a zero accumulator. -/
theorem agg_apply (p : FVec Ideal S10000x128 .bf16) (a : FVec Ideal S200x10000 .f32) (r : Fin 200) (j : Fin 128) :
    matmul (F := Ideal) dot_S200x10000_S10000x128_S200x128_1_0_0_1_n_n none (truncf .bf16 a bitsLt_bf16_f32) p (constant S200x128 .f32 0x00000000#32) (ix2 r j)
      = ∑ k : Fin 10000, a (ix2 r k) * p (ix2 k j) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r j) ((contrEquiv1 dot_S200x10000_S10000x128_S200x128_1_0_0_1_n_n 10000 rfl rfl).symm k) = ix2 r k := funext fun b => Fin.ext (by
    match b with
    | ⟨0, _⟩ => exact lhs_agg_0 _ _
    | ⟨1, _⟩ => exact (lhs_agg_1 _ _).trans hk)
  have er : dot_S200x10000_S10000x128_S200x128_1_0_0_1_n_n.rhsIdx (ix2 r j) ((contrEquiv1 dot_S200x10000_S10000x128_S200x128_1_0_0_1_n_n 10000 rfl rfl).symm k) = ix2 k j := funext fun b => Fin.ext (by
    match b with
    | ⟨0, _⟩ => exact (rhs_agg_0 _ _).trans hk
    | ⟨1, _⟩ => exact rhs_agg_1 _ _)
  rw [truncf_apply, el, er]

/-- The upper half of an output block: row r of 200 adjacency rows against the projected features, then relu. -/
theorem upper_apply (p : Vec Ideal S10000x128 .bf16) (a : Vec Ideal S200x10000 .f32) (r : Fin 200) (j : Fin 128) :
    k0_pay2 (F := Ideal) p a (ix2 r j) = max (∑ k : Fin 10000, a (ix2 r k) * p (ix2 k j)) 0 := by
  unfold k0_pay2
  rw [maximumf_apply, broadcast_apply, agg_apply]
  exact congrArg (max _) Ideal.ofBits_zero_f32

/-- The lower half: the same expression on the second stream of adjacency rows. -/
theorem lower_apply (p : Vec Ideal S10000x128 .bf16) (a : Vec Ideal S200x10000 .f32) (r : Fin 200) (j : Fin 128) :
    k0_pay3 (F := Ideal) p a (ix2 r j) = max (∑ k : Fin 10000, a (ix2 r k) * p (ix2 k j)) 0 := by
  unfold k0_pay3
  rw [maximumf_apply, broadcast_apply, agg_apply]
  exact congrArg (max _) Ideal.ofBits_zero_f32

end Cert.KernelIdeal.Payload

end
-- ==== Proof.Spec.lean ====
/-
  The mathematics of the graph-convolution layer, free of any program.

  For a feature matrix v (N × d), a dense adjacency matrix adj (N × N) and a weight matrix W (d' × d) the layer's
  result is relu((adj · v) · Wᵀ).  Two arrangements of the double sum are written down, index by index over the
  extended reals:

    * `aggregateThenProject`:  max (∑ₗ (∑ₖ adj[i,k] · v[k,l]) · W[j,l]) 0      (aggregate the neighbours, then project)
    * `projectThenAggregate`:  max (∑ₖ adj[i,k] · (∑ₗ v[k,l] · W[j,l])) 0      (project every node once, then aggregate)

  They agree whenever every entry is a real number: both are the sum over the pairs (k, l) of the triple products
  adj[i,k] · v[k,l] · W[j,l], by distributivity and the exchange of two finite sums.  On the extended reals
  distributivity fails at infinite entries, so finiteness is a hypothesis of the law.
-/
import Idealize.ShloMosaic.PureOps.Ideal.Laws
import Idealize.ShloMosaic.Lib.ValueIdx

noncomputable section

namespace Cert.GraphConv

open Idealize.ShloMosaic Idealize.ShloMosaic.ValueIdx

/-- The shapes of the three arguments and of the result, spelt as the programs spell them. -/
abbrev SFeat : Shape := ⟨2, ![10000, 128]⟩
abbrev SAdj : Shape := ⟨2, ![10000, 10000]⟩
abbrev SWt : Shape := ⟨2, ![128, 128]⟩

/-- Every node's features projected by the weights: (v · Wᵀ)[k, j] = ∑ₗ v[k,l] · W[j,l]. -/
def projected (v : SFeat.Idx → EReal) (W : SWt.Idx → EReal) (k : Fin 10000) (j : Fin 128) : EReal :=
  ∑ l : Fin 128, v (ix2 k l) * W (ix2 j l)

/-- Every node's neighbourhood aggregated: (adj · v)[i, l] = ∑ₖ adj[i,k] · v[k,l]. -/
def aggregated (v : SFeat.Idx → EReal) (adj : SAdj.Idx → EReal) (i : Fin 10000) (l : Fin 128) : EReal :=
  ∑ k : Fin 10000, adj (ix2 i k) * v (ix2 k l)

/-- relu((adj · v) · Wᵀ), entry by entry. -/
def aggregateThenProject (v : SFeat.Idx → EReal) (adj : SAdj.Idx → EReal) (W : SWt.Idx → EReal) : SFeat.Idx → EReal :=
  fun i => max (∑ l : Fin 128, aggregated v adj (i 0) l * W (ix2 (i 1) l)) 0

/-- relu(adj · (v · Wᵀ)), entry by entry. -/
def projectThenAggregate (v : SFeat.Idx → EReal) (adj : SAdj.Idx → EReal) (W : SWt.Idx → EReal) : SFeat.Idx → EReal :=
  fun i => max (∑ k : Fin 10000, adj (ix2 (i 0) k) * projected v W k (i 1)) 0

/-- The coercion of a finite real sum is the sum of the coercions. -/
private theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Associativity of the triple product summed over two finite index sets, for real entries read in the extended
    reals: both sides are the coercion of ∑ₖ ∑ₗ a k · b k l · c l. -/
private theorem sum_mul_sum_assoc {ι κ : Type} [Fintype ι] [Fintype κ] (a : ι → ℝ) (b : ι → κ → ℝ) (c : κ → ℝ) :
    (∑ k, (a k : EReal) * ∑ l, (b k l : EReal) * (c l : EReal))
      = ∑ l, (∑ k, (a k : EReal) * (b k l : EReal)) * (c l : EReal) := by
  simp only [← EReal.coe_mul, ← coe_sum]
  congr 1
  simp only [Finset.mul_sum, Finset.sum_mul]
  rw [Finset.sum_comm]
  refine Finset.sum_congr rfl fun l _ => Finset.sum_congr rfl fun k _ => ?_
  ring

/-- Matrix multiplication is associative on real entries: the two arrangements of the layer agree. -/
theorem projectThenAggregate_eq (v : SFeat.Idx → EReal) (adj : SAdj.Idx → EReal) (W : SWt.Idx → EReal)
    (hv : ∀ i, ∃ r : ℝ, v i = (r : EReal)) (hadj : ∀ i, ∃ r : ℝ, adj i = (r : EReal)) (hW : ∀ i, ∃ r : ℝ, W i = (r : EReal)) :
    projectThenAggregate v adj W = aggregateThenProject v adj W := by
  obtain ⟨fv, rfl⟩ : ∃ fv : SFeat.Idx → ℝ, v = fun i => (fv i : EReal) :=
    ⟨fun i => (hv i).choose, funext fun i => (hv i).choose_spec⟩
  obtain ⟨fadj, rfl⟩ : ∃ fadj : SAdj.Idx → ℝ, adj = fun i => (fadj i : EReal) :=
    ⟨fun i => (hadj i).choose, funext fun i => (hadj i).choose_spec⟩
  obtain ⟨fW, rfl⟩ : ∃ fW : SWt.Idx → ℝ, W = fun i => (fW i : EReal) :=
    ⟨fun i => (hW i).choose, funext fun i => (hW i).choose_spec⟩
  funext i
  exact congrArg (fun x => max x 0)
    (sum_mul_sum_assoc (fun k => fadj (ix2 (i 0) k)) (fun k l => fv (ix2 k l)) (fun l => fW (ix2 (i 1) l)))

end Cert.GraphConv

end
-- ==== Proof.KI.Value.lean ====
/-
  What the kernel's result array holds after the run, at the exact instance.

  The result is written back block by block, 400 rows a grid point.  Point t's block is one function of the projected
  features and of the point's two adjacency blocks: rows 0…199 from adjacency rows 400t … 400t+199 (the even stream's
  block 2t), rows 200…399 from adjacency rows 400t+200 … 400t+399 (the odd stream's block 2t+1); the projected features
  are the product of the whole feature matrix and the whole weight matrix.  So every block is the restriction of ONE
  function of the three argument arrays — the layer in its project-then-aggregate arrangement — and the 25 blocks tile
  the array.
-/
import proofs.«102075_g11467562680484_week1_w4_595_9_alg».proof.Proof.KI.Frame
import proofs.«102075_g11467562680484_week1_w4_595_9_alg».proof.Proof.KI.Payload
import proofs.«102075_g11467562680484_week1_w4_595_9_alg».proof.Proof.Spec

set_option maxRecDepth 16384

noncomputable section

namespace Cert.KernelIdeal.Layer

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Region Cert.GraphConv

variable (m : (ℓ : Loc nD τ sig) → Buf (Elt Ideal) ℓ)

/-! ## The windows' block indices -/

/-- The printed index maps, decided once over the 25 grid points: the feature matrix and the weight matrix are one block
    each, at index 0; the even adjacency stream is at row block 2t, the odd one at 2t+1; the result at row block t. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

/-- The grid has 25 points. -/
theorem point_lt (t : Fin cfg0.N) : t.val < 25 := by
  have h : cfg0.N = 25 := N_0
  have := t.isLt
  omega

/-! ## The input blocks, read off their arrays -/

/-- The feature matrix's one block is the whole array. -/
theorem feat_read (c : Dev nD) (t : Fin cfg0.N) (y : S10000x128.Idx) :
    (iblk m c 0 t : Vec Ideal S10000x128 .f32) y = V m c main_arg0 y := by
  obtain ⟨e0, e1, -⟩ := index_facts t
  show V m c main_arg0 (((cfg0.win 0).blk t).view.emb y) = V m c main_arg0 y
  congr 1
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight matrix's one block is the whole array. -/
theorem wt_read (c : Dev nD) (t : Fin cfg0.N) (y : S128x128.Idx) :
    (iblk m c 1 t : Vec Ideal S128x128 .f32) y = V m c main_arg2 y := by
  obtain ⟨-, -, e0, e1, -⟩ := index_facts t
  show V m c main_arg2 (((cfg0.win 1).blk t).view.emb y) = V m c main_arg2 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The even stream's block at point t is adjacency rows 400t … 400t+199. -/
theorem even_read (c : Dev nD) (t : Fin cfg0.N) (r : Fin 200) (k : Fin 10000) (i : S10000x10000.Idx)
    (h0 : (i 0).val = 400 * t.val + r.val) (h1 : (i 1).val = k.val) :
    (iblk m c 2 t : Vec Ideal S200x10000 .f32) (ix2 r k) = V m c main_arg1 i := by
  obtain ⟨-, -, -, -, e0, e1, -⟩ := index_facts t
  show V m c main_arg1 (((cfg0.win 2).blk t).view.emb (ix2 r k)) = V m c main_arg1 i
  congr 1
  funext a; apply Fin.ext
  match a with
  | ⟨0, _⟩ => show win0_2.index t (0 : Fin 2) * 200 + 1 * r.val = (i 0).val; omega
  | ⟨1, _⟩ => show win0_2.index t (1 : Fin 2) * 10000 + 1 * k.val = (i 1).val; omega

/-- The odd stream's block at point t is adjacency rows 400t+200 … 400t+399. -/
theorem odd_read (c : Dev nD) (t : Fin cfg0.N) (r : Fin 200) (k : Fin 10000) (i : S10000x10000.Idx)
    (h0 : (i 0).val = 400 * t.val + 200 + r.val) (h1 : (i 1).val = k.val) :
    (iblk m c 3 t : Vec Ideal S200x10000 .f32) (ix2 r k) = V m c main_arg1 i := by
  obtain ⟨-, -, -, -, -, -, e0, e1, -⟩ := index_facts t
  show V m c main_arg1 (((cfg0.win 3).blk t).view.emb (ix2 r k)) = V m c main_arg1 i
  congr 1
  funext a; apply Fin.ext
  match a with
  | ⟨0, _⟩ => show win0_3.index t (0 : Fin 2) * 200 + 1 * r.val = (i 0).val; omega
  | ⟨1, _⟩ => show win0_3.index t (1 : Fin 2) * 10000 + 1 * k.val = (i 1).val; omega

/-! ## A result block at an index -/

/-- The aggregate at a row and a feature depends on them only through their values. -/
theorem agg_congr (A : Fin 400 → Fin 10000 → EReal) (p : Vec Ideal S10000x128 .bf16) (f : Fin 10000 → EReal)
    (u u' : Fin 400) (j j' : Fin 128) (hu : u.val = u'.val) (hj : j.val = j'.val) (hf : ∀ k, f k = A u k) :
    max (∑ k : Fin 10000, f k * p (ix2 k j)) 0 = max (∑ k : Fin 10000, A u' k * p (ix2 k j')) 0 := by
  obtain rfl : u = u' := Fin.ext hu
  obtain rfl : j = j' := Fin.ext hj
  simp only [hf]

/-- The two stores' pieces are blocks of ONE function of the staging buffer's index: when the two adjacency blocks are
    the upper and the lower 200 rows of one 400-row function `A`, the result block at row r and feature j is
    max (∑ₖ A[r,k] · p[k,j]) 0. -/
theorem resultBlock_apply (p : Vec Ideal S10000x128 .bf16) (a b : Vec Ideal S200x10000 .f32)
    (A : Fin 400 → Fin 10000 → EReal)
    (ha : ∀ (r : Fin 200) (k : Fin 10000), a (ix2 r k) = A ⟨r.val, by omega⟩ k)
    (hb : ∀ (r : Fin 200) (k : Fin 10000), b (ix2 r k) = A ⟨r.val + 200, by omega⟩ k)
    (y : S400x128.Idx) :
    resultBlock p a b y = max (∑ k : Fin 10000, A (y 0) k * p (ix2 k (y 1))) 0 := by
  unfold resultBlock
  refine View.canon_apply_of_pieces (Val := Elt Ideal) (S := S400x128) (e := .f32)
    (fun y : S400x128.Idx => (max (∑ k : Fin 10000, A (y 0) k * p (ix2 k (y 1))) 0 : EReal)) _ ?_ y
    (View.cover_of_tiledL (s := S400x128) _ S200x128.size (by sl_kernel_rfl) y)
  intro q hq
  simp only [List.mem_cons, List.mem_nil_iff, or_false] at hq
  rcases hq with rfl | rfl
  · intro x
    obtain ⟨r, j, rfl⟩ : ∃ (r : Fin 200) (j : Fin 128), x = ix2 r j := ⟨x 0, x 1, eq_ix2 x⟩
    refine (Payload.lower_apply p b r j).trans ?_
    exact agg_congr A p (fun k => b (ix2 r k)) ⟨r.val + 200, by omega⟩ _ j _
      (by show r.val + 200 = 200 + 1 * r.val; omega) (by show j.val = 0 + 1 * j.val; omega) (hb r)
  · intro x
    obtain ⟨r, j, rfl⟩ : ∃ (r : Fin 200) (j : Fin 128), x = ix2 r j := ⟨x 0, x 1, eq_ix2 x⟩
    refine (Payload.upper_apply p a r j).trans ?_
    exact agg_congr A p (fun k => a (ix2 r k)) ⟨r.val, by omega⟩ _ j _
      (by show r.val = 0 + 1 * r.val; omega) (by show j.val = 0 + 1 * j.val; omega) (ha r)

/-! ## The projected features -/

/-- The scratch's contents are every node's features projected by the weights. -/
theorem projFeat_apply (c : Dev nD) (k : Fin 10000) (j : Fin 128) :
    projFeat m c (ix2 k j) = projected (V m c main_arg0) (V m c main_arg2) k j := by
  unfold projFeat projected
  refine (Payload.projected_apply _ _ k j).trans (Finset.sum_congr rfl fun l _ => ?_)
  exact congrArg₂ (· * ·) (feat_read m c t₀ (ix2 k l)) (wt_read m c t₀ (ix2 j l))

/-! ## What a point writes back -/

/-- The aggregate of adjacency row `i 0` against feature `i 1` of the projected features is the layer at `i`. -/
theorem layer_at (v : SFeat.Idx → EReal) (adj : SAdj.Idx → EReal) (W : SWt.Idx → EReal) (P : Vec Ideal S10000x128 .bf16)
    (hP : ∀ (k : Fin 10000) (j : Fin 128), P (ix2 k j) = projected v W k j)
    (f : Fin 10000 → EReal) (i : SFeat.Idx) (j : Fin 128) (hj : j.val = (i 1).val)
    (hf : ∀ k : Fin 10000, f k = adj (ix2 (i 0) k)) :
    max (∑ k : Fin 10000, f k * P (ix2 k j)) 0 = projectThenAggregate v adj W i := by
  unfold projectThenAggregate
  refine congrArg (fun s => max s 0) (Finset.sum_congr rfl fun k _ => ?_)
  exact congrArg₂ (· * ·) (hf k) ((hP k j).trans (congrArg (projected v W k) (Fin.ext hj)))

/-- WHAT POINT `t` WRITES BACK is block `t` of the layer of the argument arrays as the region finds them. -/
theorem flushed_eq (c : Dev nD) (t : Fin cfg0.N) :
    (dats m 0 c).flushed 4 t = ((cfg0.win 4).blk t).view.read (Elt Ideal)
      (projectThenAggregate (V m c main_arg0) (V m c main_arg1) (V m c main_arg2)) := by
  show (cfg0.win 4).cut (grid0.coords t) ((dats m 0 c).after 4 t) = _
  rw [after4]
  funext y
  have ht := point_lt t
  have hy0 : (y 0).val < 400 := (y 0).isLt
  obtain ⟨-, -, -, -, -, -, -, -, e0, e1⟩ := index_facts t
  -- the point's 400 adjacency rows as one function: the even block above the odd one
  refine (resultBlock_apply (projFeat m c) (iblk m c 2 t) (iblk m c 3 t)
    (fun r k => V m c main_arg1 (ix2 (⟨400 * t.val + r.val, by have := r.isLt; omega⟩ : Fin 10000) k)) ?_ ?_ y).trans ?_
  · intro r k
    exact even_read m c t r k _ rfl rfl
  · intro r k
    exact odd_read m c t r k _ (by show 400 * t.val + (r.val + 200) = 400 * t.val + 200 + r.val; omega) rfl
  · -- row 400t + y₀ of the adjacency, feature y₁: the layer at the block's array index
    refine layer_at (V m c main_arg0) (V m c main_arg1) (V m c main_arg2) (projFeat m c) (projFeat_apply m c) _
      (((cfg0.win 4).blk t).view.emb y) (y 1) ?_ fun k => congrArg (V m c main_arg1) (funext fun a => Fin.ext ?_)
    · show (y 1).val = win0_4.index t (1 : Fin 2) * 128 + 1 * (y 1).val
      omega
    · match a with
      | ⟨0, _⟩ => show 400 * t.val + (y 0).val = win0_4.index t (0 : Fin 2) * 400 + 1 * (y 0).val; omega
      | ⟨1, _⟩ => rfl

/-! ## The blocks tile the array -/

/-- An index of the result array is in point `t`'s block iff each coordinate is in the block's range on its axis. -/
theorem mem_block (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v0).slice (win0_4.rect t)).set ↔ _
  rw [View.set_slice_whole, Rect.mem_set_unit]
  exact Iff.rfl

/-- Every index of the result array lies in the block of the point its row falls in. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, -, -, e0, e1⟩ := index_facts t
  refine ⟨t, flush0_4 t, ?_⟩
  rw [mem_block]
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 128 ≤ (i 1).val ∧ (i 1).val < win0_4.index t (1 : Fin 2) * 128 + 128
    omega

/-- THE RESULT ARRAY after the run: the layer of the three argument arrays. -/
theorem final (c : Dev nD) :
    (dats m 0 c).arrAt 4 cfg0.N = projectThenAggregate (V m c main_arg0) (V m c main_arg1) (V m c main_arg2) :=
  (dats m 0 c).arrAt_eq_of_cover 4 _ (fun t _ => flushed_eq m c t) cover

end Cert.KernelIdeal.Layer

end
-- ==== Proof.RefValue.lean ====
/-
  The reference program's result, read entry by entry at the exact instance, is relu((adj · v) · Wᵀ):
  its first product aggregates the neighbours, the transpose turns W[j,l] into Wᵀ[l,j], its second product projects,
  and the final maximum with the zero splat is the relu.
-/
import proofs.«102075_g11467562680484_week1_w4_595_9_alg».proof.Proof.Gen.ReferenceIdeal.Read
import proofs.«102075_g11467562680484_week1_w4_595_9_alg».proof.Proof.Spec

noncomputable section

namespace Cert.GraphConv

open Idealize.ShloMosaic Idealize.ShloMosaic.ValueIdx Cert.ReferenceIdeal Cert.ReferenceIdeal.Read

/-- The reference's last stage is the layer in its aggregate-then-project arrangement. -/
theorem reference_eq (v : (⟨S10000x128, .f32⟩ : BufTy).Contents (Elt Ideal)) (adj : (⟨S10000x10000, .f32⟩ : BufTy).Contents (Elt Ideal))
    (W : (⟨S128x128, .f32⟩ : BufTy).Contents (Elt Ideal)) :
    val_main_v3 (F := Ideal) v adj W = aggregateThenProject v adj W := by
  funext i
  -- the first product's left operand is read at row i 0, column k
  have e1 : ∀ (l : Fin 128) (k : Fin 10000), lidx_main_v0 (lidx_main_v2 i l) k = ix2 (i 0) k := fun l k =>
    funext fun a => by match a with | ⟨0, _⟩ => rfl | ⟨1, _⟩ => rfl
  -- its right operand at row k, column l
  have e2 : ∀ (l : Fin 128) (k : Fin 10000), ridx_main_v0 (lidx_main_v2 i l) k = ix2 k l := fun l k =>
    funext fun a => by match a with | ⟨0, _⟩ => rfl | ⟨1, _⟩ => rfl
  -- the transposed weights at (l, i 1) are the weights at (i 1, l)
  have e3 : ∀ l : Fin 128, idx_main_v1 (ridx_main_v2 i l) = ix2 (i 1) l := fun l =>
    funext fun a => by match a with | ⟨0, _⟩ => rfl | ⟨1, _⟩ => rfl
  rw [val_main_v3_apply, val_main_v2_apply, val_main_call0_v0_apply, val_main_call0_cst_apply,
    Ideal.maximumf_def, Ideal.ofBits_def, Ideal.ofBits_zero_f32]
  unfold aggregateThenProject aggregated
  congr 1
  refine Finset.sum_congr rfl fun l _ => ?_
  rw [val_main_v0_apply, val_main_v1_apply, e3]
  congr 1
  refine Finset.sum_congr rfl fun k _ => ?_
  rw [e1, e2]
  -- both sides are the same product; only the spelling of an extent in the index's shape differs
  rfl

end Cert.GraphConv

end
-- ==== Proof.Finite.lean ====
/-
  What the precondition says at the exact instance: each of the three arguments holds real numbers only.

  The precondition is the conjunction, over the three arrays, of "every entry's absolute value is below +∞".
  On the extended reals |x| < +∞ excludes exactly the two infinities, so every entry is (the coercion of) a real.
-/
import proofs.«102075_g11467562680484_week1_w4_595_9_alg».proof.Pre_finite_inputs
import Idealize.ShloMosaic.PureOps.Ideal.Laws
import Idealize.ShloMosaic.Lib.ValueIdx
import Idealize.ShloMosaic.Lib.ReduceAll

noncomputable section

namespace Cert.GraphConv

open Idealize.ShloMosaic Idealize.ShloMosaic.ValueIdx

/-- The pattern 0x7F800000 (sign 0, exponent all ones, fraction 0) denotes +∞. -/
theorem ofBits_inf_f32 : Ideal.ofBits .f32 0x7F800000#32 = (⊤ : EReal) := by
  simp [Ideal.ofBits, Ideal.ieee]

/-- An extended real whose absolute value max x (−x) is strictly below +∞ is a real:
    x = +∞ gives max = +∞, x = −∞ gives −x = +∞, and both contradict the strict bound. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞, computed on extended reals, yields the word 1 only at a real x. -/
theorem real_of_cmp_one (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact real_of_abs_lt_top x hlt
  · simp [hlt] at h'

instance : Subsingleton Cert.Pre_finite_inputs.S_.Idx := ⟨fun a b => funext fun d => d.elim0⟩

/-- Under the precondition every entry of the features, of the adjacency and of the weights is a real number. -/
theorem real_of_finite_inputs [Cert.Pre_finite_inputs.Facts]
    (v : FVec Ideal Cert.Pre_finite_inputs.S10000x128 .f32) (adj : FVec Ideal Cert.Pre_finite_inputs.S10000x10000 .f32)
    (W : FVec Ideal Cert.Pre_finite_inputs.S128x128 .f32)
    (h : Cert.Pre_finite_inputs.fn (F := Ideal) v adj W = fun _ => 1#1) :
    (∀ i, ∃ r : ℝ, v i = (r : EReal)) ∧ (∀ i, ∃ r : ℝ, adj i = (r : EReal)) ∧ (∀ i, ∃ r : ℝ, W i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_cmp_one (v i) (Host.reduce_andi_all _ _ _ _ _ h1 i)
  · exact real_of_cmp_one (adj i) (Host.reduce_andi_all _ _ _ _ _ h2 i)
  · exact real_of_cmp_one (W i) (Host.reduce_andi_all _ _ _ _ _ h3 i)

end Cert.GraphConv

end
-- ==== Proof.lean ====
/-
  The certificate of the fused graph-convolution kernel against its reference: relu(adj · (v · Wᵀ)) against
  relu((adj · v) · Wᵀ).

  The kernel is one region of 25 grid points.  At the first point it multiplies the whole feature matrix v by the
  transposed weight matrix and keeps the projected features in a scratch buffer; at every point it multiplies two
  blocks of 200 adjacency rows (the even and the odd row blocks of the same matrix, read through two windows) with the
  projected features, takes the maximum with zero and writes 400 rows of the result.  The reference aggregates first
  and projects afterwards.  Over the extended reals every change of float format is the identity and each matrix
  product is its plain sum, so the two results are the two arrangements of one double sum; they agree because, under
  the precondition, every entry is a real number, where multiplication distributes over finite sums and two finite
  sums commute.

  The three frames: the kernel's program, read at the word level and at the exact instance, is run by the pipeline
  launch for windows that share an array, its body by symbolic execution at each of the two cases of its conditional;
  the reference is a straight line of host operations.  The idealization rewrote nothing, so its conjunct is trivial.
-/
import proofs.«102075_g11467562680484_week1_w4_595_9_alg».proof.Defs
import proofs.«102075_g11467562680484_week1_w4_595_9_alg».proof.Proof.Gen.Kernel
import proofs.«102075_g11467562680484_week1_w4_595_9_alg».proof.Proof.Gen.KernelIdeal
import proofs.«102075_g11467562680484_week1_w4_595_9_alg».proof.Proof.Gen.ReferenceIdeal
import proofs.«102075_g11467562680484_week1_w4_595_9_alg».proof.Proof.Gen.Pre_finite_inputs
import proofs.«102075_g11467562680484_week1_w4_595_9_alg».proof.Proof.Gen.ReferenceIdeal.Run
import proofs.«102075_g11467562680484_week1_w4_595_9_alg».proof.Proof.K.Run
import proofs.«102075_g11467562680484_week1_w4_595_9_alg».proof.Proof.KI.Run
import proofs.«102075_g11467562680484_week1_w4_595_9_alg».proof.Proof.KI.Value
import proofs.«102075_g11467562680484_week1_w4_595_9_alg».proof.Proof.RefValue
import proofs.«102075_g11467562680484_week1_w4_595_9_alg».proof.Proof.Finite
import Idealize.ShloMosaic.Adequacy
import Idealize.ShloMosaic.Init

noncomputable section

namespace Cert.Proof

open Idealize.ShloMosaic Idealize.SL.Sem Cert.GraphConv

/-- The word-level program runs and leaves its arguments unchanged. -/
theorem frame_kernel : Cert.frame_Kernel := fun m ρ _ => Cert.Kernel.Region.frame m ρ

/-- The same program at the exact instance. -/
theorem frame_kernelIdeal : Cert.frame_KernelIdeal := fun m ρ _ => Cert.KernelIdeal.Region.frame m ρ

/-- The reference is host operations only: its run, the result dropped. -/
theorem frame_reference : Cert.frame_ReferenceIdeal := fun m ρ _ =>
  (θ_run Cert.ReferenceIdeal.defs _ _).mono (fun _ h c => ⟨(h c).2.2.1, (h c).2.2.2.1, (h c).2.2.2.2⟩)
    (Cert.ReferenceIdeal.Value.run (F := Ideal) m ρ)

/-- The idealization rewrote no operation. -/
theorem preserves : Cert.preserves_Kernel_KernelIdeal := trivial

/-- At the exact instance the kernel's result array ends at the layer in its project-then-aggregate arrangement and
    the reference's at the aggregate-then-project one, of arguments that agree and hold real numbers: one function. -/
theorem algebraic : Cert.algebraic_KernelIdeal_ReferenceIdeal := by
  intro m ρ m' ρ' hpre hagree
  refine ⟨fun c => projectThenAggregate (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg1), ?_, ?_⟩
  · exact (θ_run Cert.KernelIdeal.defs _ _).mono (fun r h c =>
      ⟨(Cert.KernelIdeal.Region.result m r h c).trans (Cert.KernelIdeal.Layer.final m c),
        Cert.KernelIdeal.Region.kept1 m r h c, Cert.KernelIdeal.Region.kept0 m r h c,
        Cert.KernelIdeal.Region.kept1 m r h c, Cert.KernelIdeal.Region.kept2 m r h c⟩)
      (Cert.KernelIdeal.Region.run_main m ρ)
  · refine (θ_run Cert.ReferenceIdeal.defs _ _).mono (fun r h c => ⟨?_, (h c).2.1.trans (hagree c).2.1, (h c).2.2.1, (h c).2.2.2.1, (h c).2.2.2.2⟩)
      (Cert.ReferenceIdeal.Value.run (F := Ideal) m' ρ')
    obtain ⟨hv, hadj, hW⟩ := real_of_finite_inputs _ _ _ (hpre c)
    rw [(h c).1, Cert.ReferenceIdeal.Read.val_main_v3_eq, reference_eq, (hagree c).1, (hagree c).2.1, (hagree c).2.2]
    exact (projectThenAggregate_eq _ _ _ hv hadj hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
